-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S_ : Shape := ⟨0, ![]⟩
abbrev S262144 : Shape := ⟨1, ![262144]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  reducesTo_S262144x256_S262144_d1 : S262144x256.ReducesTo [1] S262144
  bcast_S_S262144 : S_.BroadcastsInDim S262144 (![] : Fin 0 → Fin S262144.rank)
  reducesTo_S262144_S_d0 : S262144.ReducesTo [0] S_

variable [Facts]

def fn_part1 {F : FTy → Type} [FloatOps F] (main_v14 : IVec S_ 1) (main_v15 : FVec F S262144x256 .f32) (main_cst_5 : FVec F S_ .f32) : IVec S_ 1 :=
  let main_v16 : FVec F S262144 .f32 := (fun x v => Host.reduceAdd x v reducesTo_S262144x256_S262144_d1 h_S_) main_v15 main_cst_5
  let main_cst_6 : FVec F S_ .f32 := constant S_ .f32 0x00000000#32
  let main_v17 : FVec F S262144 .f32 := broadcastInDim S262144 ![] bcast_S_S262144 main_cst_6
  let main_v18 : IVec S262144 1 := cmpf .ogt main_v16 main_v17
  let main_c_7 : IVec S_ 1 := constantI S_ 1 1#1
  let main_v19 : IVec S_ 1 := (fun x v => Host.reduce IntOp.andi x v reducesTo_S262144_S_d0 h_S_) main_v18 main_c_7
  let main_v20 : IVec S_ 1 := andi main_v14 main_v19
  main_v20

def fn {F : FTy → Type} [FloatOps F] (main_arg0 : FVec F S262144x256 .f32) (main_arg1 : FVec F S262144x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  let main_v9 : FVec F S262144x256 .f32 := mulf main_arg0 main_arg0
  let main_cst_2 : FVec F S_ .f32 := constant S_ .f32 0x00000000#32
  let main_v10 : FVec F S262144 .f32 := (fun x v => Host.reduceAdd x v reducesTo_S262144x256_S262144_d1 h_S_) main_v9 main_cst_2
  let main_cst_3 : FVec F S_ .f32 := constant S_ .f32 0x00000000#32
  let main_v11 : FVec F S262144 .f32 := broadcastInDim S262144 ![] bcast_S_S262144 main_cst_3
  let main_v12 : IVec S262144 1 := cmpf .ogt main_v10 main_v11
  let main_c_4 : IVec S_ 1 := constantI S_ 1 1#1
  let main_v13 : IVec S_ 1 := (fun x v => Host.reduce IntOp.andi x v reducesTo_S262144_S_d0 h_S_) main_v12 main_c_4
  let main_v14 : IVec S_ 1 := andi main_v8 main_v13
  let main_v15 : FVec F S262144x256 .f32 := mulf main_arg1 main_arg1
  let main_cst_5 : FVec F S_ .f32 := constant S_ .f32 0x00000000#32
  fn_part1 (F := F) main_v14 main_v15 main_cst_5
-- ==== Kernel.lean ====
abbrev S262144x256 : Shape := ⟨2, ![262144, 256]⟩
abbrev S262144x1 : Shape := ⟨2, ![262144, 1]⟩
abbrev S2048x256 : Shape := ⟨2, ![2048, 256]⟩
abbrev S2048x1 : Shape := ⟨2, ![2048, 1]⟩
abbrev S2048 : Shape := ⟨1, ![2048]⟩

abbrev nBuf : Space → Nat
  | .hbm => 3
  | .vmem => 6
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S262144x1, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x1, .f32⟩
  | .local _ .vmem, ⟨5, _⟩ => ⟨S2048x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S262144x256.size a
  hwx0_1 : ∀ i : grid0.Coords, EltTy.bits .f32 = 32 ∨ (Rect.block (s := S262144x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S262144x1.size a
  hwx0_2 : ∀ i : grid0.Coords, EltTy.bits .f32 = 32 ∨ (Rect.block (s := S262144x1) S2048x1.size (cc0_transform_2 i) (hinb0_2 i)).WholeWords (EltTy.packing .f32)

variable [Facts₀]

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x256 : Shape := ⟨2, ![262144, 256]⟩
abbrev S_ : Shape := ⟨0, ![]⟩
abbrev S262144 : Shape := ⟨1, ![262144]⟩
abbrev S262144x1 : Shape := ⟨2, ![262144, 1]⟩

abbrev nBuf : Space → Nat
  | .hbm => 20
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S262144x256, .f32⟩
  | .hbm, ⟨3, _⟩ => ⟨S_, .f32⟩
  | .hbm, ⟨4, _⟩ => ⟨S262144, .f32⟩
  | .hbm, ⟨5, _⟩ => ⟨S262144x1, .f32⟩
  | .hbm, ⟨6, _⟩ => ⟨S262144x1, .f32⟩
  | .hbm, ⟨7, _⟩ => ⟨S262144x256, .f32⟩
  | .hbm, ⟨8, _⟩ => ⟨S_, .f32⟩
  | .hbm, ⟨9, _⟩ => ⟨S262144, .f32⟩
  | .hbm, ⟨10, _⟩ => ⟨S262144x1, .f32⟩
  | .hbm, ⟨11, _⟩ => ⟨S262144x1, .f32⟩
  | .hbm, ⟨12, _⟩ => ⟨S262144x256, .f32⟩
  | .hbm, ⟨13, _⟩ => ⟨S262144x256, .f32⟩
  | .hbm, ⟨14, _⟩ => ⟨S262144x256, .f32⟩
  | .hbm, ⟨15, _⟩ => ⟨S262144x256, .f32⟩
  | .hbm, ⟨16, _⟩ => ⟨S262144x256, .f32⟩
  | .hbm, ⟨17, _⟩ => ⟨S_, .f32⟩
  | .hbm, ⟨18, _⟩ => ⟨S262144, .f32⟩
  | .hbm, ⟨19, _⟩ => ⟨S262144x1, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_call1_v2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)

variable [Facts₀]

class Facts : Prop extends Facts₀ where

variable [Facts]
-- ==== Proof.Cosine.lean ====
/-
  The cosine of two rows, in the two arrangements the programs compute, on the extended reals.

  For rows `a b : Fin n → EReal`:
  * `quot a b`    = (∑ a·b) / (√(∑ a·a) · √(∑ b·b)) — one quotient of the inner product by the product of the norms;
  * `normDot a b` = ∑ (a / √(∑ a·a)) · (b / √(∑ b·b)) — the inner product of the two rows after each is divided by its norm.
  The quotient is `Ideal.div` (which answers `⊥` at `0 / 0` and an infinity at `x / 0`), so the two differ on a zero row:
  `quot` is `0 / 0 = ⊥` there while `normDot` sums products of `⊥`s. On rows of real numbers whose sums of squares are
  positive both norms are positive reals, every quotient is a product with a real reciprocal, and the two are the same
  real number: `(∑ aₖ bₖ) / (‖a‖ ‖b‖) = ∑ (aₖ / ‖a‖) (bₖ / ‖b‖)` (`normDot_eq_quot`).
-/
import Idealize.ShloMosaic.PureOps.Ideal
import Idealize.ShloMosaic.Lib.ValueIdx

noncomputable section

open scoped BigOperators

namespace Cert.Cosine

open Idealize.ShloMosaic

variable {n : ℕ}

/-- The inner product over the product of the norms. -/
def quot (a b : Fin n → EReal) : EReal :=
  Ideal.div (∑ k, a k * b k) (Ideal.sqrt (∑ k, a k * a k) * Ideal.sqrt (∑ k, b k * b k))

/-- The inner product of the two normalised rows. -/
def normDot (a b : Fin n → EReal) : EReal :=
  ∑ k, Ideal.div (a k) (Ideal.sqrt (∑ j, a j * a j)) * Ideal.div (b k) (Ideal.sqrt (∑ j, b j * b j))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real entries is the real sum of products. -/
theorem sum_coe_mul (a b : Fin n → ℝ) : (∑ k, ((a k : ℝ) : EReal) * ((b k : ℝ) : EReal)) = ((∑ k, a k * b k : ℝ) : EReal) := by
  rw [coe_sum]; exact Finset.sum_congr rfl fun k _ => (EReal.coe_mul _ _).symm

/-- On real rows with positive sums of squares the two arrangements are one real number. -/
theorem normDot_eq_quot_coe (a b : Fin n → ℝ) (hpa : 0 < ∑ k, a k * a k) (hpb : 0 < ∑ k, b k * b k) :
    normDot (fun k => ((a k : ℝ) : EReal)) (fun k => ((b k : ℝ) : EReal))
      = quot (fun k => ((a k : ℝ) : EReal)) (fun k => ((b k : ℝ) : EReal)) := by
  unfold normDot quot
  simp only [sum_coe_mul]
  have sA : Ideal.sqrt ((∑ k, a k * a k : ℝ) : EReal) = (Real.sqrt (∑ k, a k * a k) : EReal) := by
    rw [Ideal.sqrt_coe, if_neg (not_lt.mpr hpa.le)]
  have sB : Ideal.sqrt ((∑ k, b k * b k : ℝ) : EReal) = (Real.sqrt (∑ k, b k * b k) : EReal) := by
    rw [Ideal.sqrt_coe, if_neg (not_lt.mpr hpb.le)]
  rw [sA, sB]
  have hsa : 0 < Real.sqrt (∑ k, a k * a k) := Real.sqrt_pos.mpr hpa
  have hsb : 0 < Real.sqrt (∑ k, b k * b k) := Real.sqrt_pos.mpr hpb
  rw [← EReal.coe_mul, Ideal.div_coe (mul_pos hsa hsb).ne']
  simp only [Ideal.div_coe hsa.ne', Ideal.div_coe hsb.ne', ← EReal.coe_mul, ← coe_sum]
  congr 1
  rw [Finset.sum_mul]
  refine Finset.sum_congr rfl fun k _ => ?_
  field_simp

/-- An extended real that is neither infinity is a real number. -/
theorem exists_real {x : EReal} (h : x ≠ ⊤ ∧ x ≠ ⊥) : ∃ r : ℝ, x = (r : EReal) := by
  induction x using EReal.rec with
  | bot => exact absurd rfl h.2
  | coe r => exact ⟨r, rfl⟩
  | top => exact absurd rfl h.1

/-- On finite rows with positive sums of squares, the inner product of the normalised rows is the inner product over
    the product of the norms. -/
theorem normDot_eq_quot (a b : Fin n → EReal) (ha : ∀ k, a k ≠ ⊤ ∧ a k ≠ ⊥) (hb : ∀ k, b k ≠ ⊤ ∧ b k ≠ ⊥)
    (hpa : 0 < ∑ k, a k * a k) (hpb : 0 < ∑ k, b k * b k) : normDot a b = quot a b := by
  choose a' ha' using fun k => exists_real (ha k)
  choose b' hb' using fun k => exists_real (hb k)
  obtain rfl : a = fun k => ((a' k : ℝ) : EReal) := funext ha'
  obtain rfl : b = fun k => ((b' k : ℝ) : EReal) := funext hb'
  rw [sum_coe_mul, EReal.coe_pos] at hpa hpb
  exact normDot_eq_quot_coe a' b' hpa hpb

/-! ## The arrays -/

/-- Row `r` of a rank-2 array. -/
abbrev row {N K : ℕ} (x : (⟨2, ![N, K]⟩ : Shape).Idx → EReal) (r : Fin N) : Fin K → EReal :=
  fun k => x (ValueIdx.ix2 r k)

/-- The column of cosines: entry `(r, 0)` is the cosine of row `r` of `q` and row `r` of `d`, as one quotient. -/
def cosCol {N K : ℕ} (q d : (⟨2, ![N, K]⟩ : Shape).Idx → EReal) : (⟨2, ![N, 1]⟩ : Shape).Idx → EReal :=
  fun i => quot (row q (i 0)) (row d (i 0))

end Cert.Cosine

end
-- ==== Proof.PreDecode.lean ====
/-
  The precondition, read back.

  The precondition is the conjunction of four `all`s: every entry of each argument has absolute value below `+∞`, and
  every row of each argument has a sum of squares (from the initial value zero) above zero. Stated as "the printed
  predicate is 1", it gives, at the extended reals: every entry of each argument is a real number, and for every row
  `r` the sum over the 256 columns of the squares of the row's entries is positive — exactly what makes the row's norm a
  positive real.
-/
import proofs.«155306_j26946624815703_1_alg».proof.Pre_finite_inputs
import proofs.«155306_j26946624815703_1_alg».proof.Proof.Gen.Pre_finite_inputs
import Idealize.ShloMosaic.Lib.ReduceAll
import Idealize.ShloMosaic.Lib.StableHlo.Predicate
import Idealize.ShloMosaic.PureOps.Ideal.Laws
import Idealize.ShloMosaic.Lib.ValueIdx

noncomputable section

open scoped BigOperators

namespace Cert.PreDecode

open Idealize.ShloMosaic Idealize.ShloMosaic.ValueIdx Cert.Pre_finite_inputs Cert.Pre_finite_inputs.Facts

instance : Subsingleton S_.Idx := ⟨fun a b => funext fun d => d.elim0⟩

/-- A one-bit word made from a decision is 1 exactly when the decision holds. -/
theorem ofBool_decide_eq_one {p : Prop} [Decidable p] (h : BitVec.ofBool (decide p) = 1#1) : p := by
  by_cases hp : p
  · exact hp
  · simp [hp] at h

/-- An extended real whose absolute value is below the pattern of `+∞` is neither infinity. -/
theorem finite_of_abs_lt (x : EReal)
    (h : FloatOps.cmpf (F := Ideal) .olt (FloatOps.hostAbsf (F := Ideal) (φ := .f32) x) (FloatOps.ofBits (F := Ideal) .f32 0x7F800000#32) = 1#1) :
    x ≠ ⊤ ∧ x ≠ ⊥ := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  have hlt : max x (-x) < ⊤ := ofBool_decide_eq_one h
  rw [max_lt_iff] at hlt
  refine ⟨hlt.1.ne, ?_⟩
  rintro rfl
  simp at hlt

/-- The host's sum over the columns from the initial value zero, at row `r`, is the sum over the column coordinate. -/
theorem rowSum_apply (x : FVec Ideal S262144x256 .f32) (r : Fin 262144) :
    Host.reduceAdd (F := Ideal) x (constant (F := Ideal) S_ .f32 0x00000000#32) reducesTo_S262144x256_S262144_d1 h_S_ (ix1 r)
      = ∑ k : Fin 256, x (ix2 r k) := by
  simp only [Host.reduceAdd, Ideal.hostReduceAdd_def]
  rw [Ideal.hostReduceAdd_single reducesTo_S262144x256_S262144_d1 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

/-- The ordered "greater than" comparison that answers 1 says the second operand is below the first. -/
theorem lt_of_cmp_ogt (x y : EReal) (h : Ideal.cmp .ogt x y = 1#1) : y < x := by
  unfold Ideal.cmp at h
  exact ofBool_decide_eq_one h

/-- The same of two vectors compared at an index. -/
theorem lt_of_cmpf_ogt {s : Shape} (A B : FVec Ideal s .f32) (j : s.Idx) (h : cmpf (F := Ideal) .ogt A B j = 1#1) : B j < A j :=
  lt_of_cmp_ogt _ _ h

/-- A row sum that compares above the broadcast zero is positive. -/
theorem pos_of_gt_zero (x : FVec Ideal S262144x256 .f32) (r : Fin 262144)
    (h : cmpf (F := Ideal) .ogt (Host.reduceAdd (F := Ideal) x (constant (F := Ideal) S_ .f32 0x00000000#32) reducesTo_S262144x256_S262144_d1 h_S_)
        (broadcastInDim S262144 ![] bcast_S_S262144 (constant (F := Ideal) S_ .f32 0x00000000#32)) (ix1 r) = 1#1) :
    0 < ∑ k : Fin 256, x (ix2 r k) := by
  have hb : broadcastInDim S262144 ![] bcast_S_S262144 (constant (F := Ideal) S_ .f32 0x00000000#32) (ix1 r) = (0 : EReal) :=
    (StableHlo.Predicate.bcast_scalar bcast_S_S262144 h_S_ _ _).trans Ideal.ofBits_zero_f32
  have hs := rowSum_apply x r
  have hlt := lt_of_cmpf_ogt _ _ _ h
  rw [hb, hs] at hlt
  exact hlt

/-- What the precondition says of the two arrays: all entries real, all rows' sums of squares positive. -/
theorem decode (q d : FVec Ideal S262144x256 .f32) (h : fn (F := Ideal) q d = fun _ => 1#1) :
    (∀ i, q i ≠ ⊤ ∧ q i ≠ ⊥) ∧ (∀ i, d i ≠ ⊤ ∧ d i ≠ ⊥)
      ∧ (∀ r : Fin 262144, 0 < ∑ k : Fin 256, q (ix2 r k) * q (ix2 r k))
      ∧ (∀ r : Fin 262144, 0 < ∑ k : Fin 256, d (ix2 r k) * d (ix2 r k)) := by
  have h0 := congrFun h ix0
  dsimp only [fn, fn_part1] at h0
  change IntOp.andi _ _ = 1#1 at h0
  obtain ⟨h123, h4⟩ := IntOp.andi_eq_one.1 h0
  change IntOp.andi _ _ = 1#1 at h123
  obtain ⟨h12, h3⟩ := IntOp.andi_eq_one.1 h123
  change IntOp.andi _ _ = 1#1 at h12
  obtain ⟨h1, h2⟩ := IntOp.andi_eq_one.1 h12
  refine ⟨fun i => finite_of_abs_lt _ (Host.reduce_andi_all _ _ _ _ _ h1 i),
    fun i => finite_of_abs_lt _ (Host.reduce_andi_all _ _ _ _ _ h2 i),
    fun r => pos_of_gt_zero (mulf q q) r (Host.reduce_andi_all _ _ _ _ _ h3 (ix1 r)),
    fun r => pos_of_gt_zero (mulf d d) r (Host.reduce_andi_all _ _ _ _ _ h4 (ix1 r))⟩

end Cert.PreDecode

end
-- ==== Proof.RefValue.lean ====
/-
  The reference's result, read at an index.

  The reference takes each array's row norms (the square root of the sum over the 256 columns of the squares, from
  the initial value zero), divides every entry by its row's norm, multiplies the two normalised arrays entry by entry
  and sums each row: entry `(r, 0)` of its result is the inner product of the two normalised rows `r`,
  `Cosine.normDot` of row `r` of each argument. Each stage is read at an index by the generated lemmas, the sums as
  sums over the column coordinate.
-/
import proofs.«155306_j26946624815703_1_alg».proof.Proof.Gen.ReferenceIdeal.Read
import proofs.«155306_j26946624815703_1_alg».proof.Proof.Cosine
import Idealize.ShloMosaic.PureOps.Ideal.Laws
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx Cert.Cosine

/-- The first argument's row norm at row `r`: the square root of the row's sum of squares. -/
theorem norm0_apply (x0 : (⟨S262144x256, .f32⟩ : BufTy).Contents (Elt Ideal)) (r : Fin 262144) (z : Fin 1) :
    val_main_v0 (F := Ideal) x0 (ix2 r z) = Ideal.sqrt (∑ k : Fin 256, x0 (ix2 r k) * x0 (ix2 r k)) := by
  rw [val_main_v0_apply, val_main_call0_v2_apply, val_main_call0_v1_apply, val_main_call0_cst_apply]
  show Ideal.sqrt (Ideal.ofBits .f32 0x00000000#32 + _) = _
  rw [Ideal.ofBits_zero_f32, zero_add]
  refine congrArg Ideal.sqrt (Finset.sum_congr rfl fun k _ => ?_)
  rw [val_main_call0_v0_apply]
  have e : idx_main_call0_v1 (idx_main_call0_v2 (ix2 r z)) k = ix2 r k :=
    funext fun a => Fin.ext (by match a with | ⟨0, _⟩ => rfl | ⟨1, _⟩ => rfl)
  rw [e]; rfl

/-- The second argument's row norm at row `r`. -/
theorem norm1_apply (x1 : (⟨S262144x256, .f32⟩ : BufTy).Contents (Elt Ideal)) (r : Fin 262144) (z : Fin 1) :
    val_main_v1 (F := Ideal) x1 (ix2 r z) = Ideal.sqrt (∑ k : Fin 256, x1 (ix2 r k) * x1 (ix2 r k)) := by
  rw [val_main_v1_apply, val_main_call1_v2_apply, val_main_call1_v1_apply, val_main_call1_cst_apply]
  show Ideal.sqrt (Ideal.ofBits .f32 0x00000000#32 + _) = _
  rw [Ideal.ofBits_zero_f32, zero_add]
  refine congrArg Ideal.sqrt (Finset.sum_congr rfl fun k _ => ?_)
  rw [val_main_call1_v0_apply]
  have e : idx_main_call1_v1 (idx_main_call1_v2 (ix2 r z)) k = ix2 r k :=
    funext fun a => Fin.ext (by match a with | ⟨0, _⟩ => rfl | ⟨1, _⟩ => rfl)
  rw [e]; rfl

/-- Entry `(r, 0)` of the reference's result is the inner product of the two normalised rows `r`. -/
theorem result_apply (x0 x1 : (⟨S262144x256, .f32⟩ : BufTy).Contents (Elt Ideal)) (r : Fin 262144) (z : Fin 1) :
    val_main_v8 (F := Ideal) x0 x1 (ix2 r z) = normDot (row x0 r) (row x1 r) := by
  rw [val_main_v8_apply, val_main_v7_apply, val_main_cst_apply]
  show Ideal.ofBits .f32 0x00000000#32 + _ = _
  rw [Ideal.ofBits_zero_f32, zero_add]
  unfold normDot
  refine Finset.sum_congr rfl fun k _ => ?_
  have e : idx_main_v7 (idx_main_v8 (ix2 r z)) k = ix2 r k :=
    funext fun a => Fin.ext (by match a with | ⟨0, _⟩ => rfl | ⟨1, _⟩ => rfl)
  have e2 : idx_main_v2 (ix2 r k) = ix2 r (0 : Fin 1) :=
    funext fun a => Fin.ext (by match a with | ⟨0, _⟩ => rfl | ⟨1, _⟩ => rfl)
  have e4 : idx_main_v4 (ix2 r k) = ix2 r (0 : Fin 1) :=
    funext fun a => Fin.ext (by match a with | ⟨0, _⟩ => rfl | ⟨1, _⟩ => rfl)
  rw [e, val_main_v6_apply, val_main_v3_apply, val_main_v5_apply, val_main_v2_apply, val_main_v4_apply, e2, e4,
    norm0_apply, norm1_apply]
  rfl

end Cert.ReferenceIdeal.RefValue

end
-- ==== Proof.LibRowLayout.lean ====
/-
  Layout operations of a ROW-BLOCKED kernel read at an index given by coordinates, for any number of rows `n`.

  A kernel that works on a block of `n` batch rows meets the same few compositions again and again; each lemma here
  reads one of them at an index written `ix1 … ix3`, so that it applies to a printed payload by unification, whatever
  `n` is (the kernel's block has 1024 rows, an array 16384; nothing here depends on it):
  * a per-row column of scalars `[n, a]` given a trailing unit axis and broadcast along it to `[n, a, b]`
    (`x[:, :, None]` against an `[n, a, b]` operand): `colBcast3_apply`;
  * a table `[a, b]` given a leading unit axis and broadcast over the rows to `[n, a, b]` (`w[None, :, :]`):
    `rowBcast3_apply`; a vector `[b]` broadcast over the rows to `[n, b]`: `rowBcast2_apply`;
  * `[n, a, c]` flattened to `[n, a · c]` (`.reshape(n, -1)`): position `k = f · c + e` of row `y` is the
    operand at `(y, f, e)`: `flatten_apply`;
  * two blocks `[n, p]`, `[n, q]` joined along the columns: `concatCols_apply`, the left block below column `p`, the
    right block from it on;
  * a sum over the columns of `[n, K]`, and over the middle axis of `[n, a, b]`, at the ideal values, as `Fin`-indexed
    sums over coordinates: `sumCols_apply`, `sumMid_apply`.
-/
import Idealize.ShloMosaic.Lib.ValueLayout
import Idealize.ShloMosaic.PureOps.Ideal.Laws

namespace Cert.RowLayout

open Idealize.ShloMosaic Idealize.ShloMosaic.ValueIdx

variable {α : Type}

/-- `x[:, :, None]` broadcast to `[n, a, b]`, read at `(y, f, e)`, is `x` at `(y, f)`. -/
theorem colBcast3_apply {n a b : ℕ} (x : (⟨2, ![n, a]⟩ : Shape).Idx → α)
    (h1 : (⟨2, ![n, a]⟩ : Shape).ShapeCasts ⟨3, ![n, a, 1]⟩)
    (h2 : (⟨3, ![n, a, 1]⟩ : Shape).Broadcasts ⟨3, ![n, a, b]⟩) (y : Fin n) (f : Fin a) (e : Fin b) :
    broadcastTo ⟨3, ![n, a, b]⟩ (shapeCast ⟨3, ![n, a, 1]⟩ x h1) h2 (ix3 y f e) = x (ix2 y f) := by
  refine (broadcastTo_apply _ h2 (ix3 y f e) (ix3 y f (0 : Fin 1)) fun ax => ?_).trans ?_
  · match ax with
    | ⟨0, _⟩ =>
      show y.val = if n = 1 then 0 else y.val
      split
      · have := y.isLt; omega
      · rfl
    | ⟨1, _⟩ =>
      show f.val = if a = 1 then 0 else f.val
      split
      · have := f.isLt; omega
      · rfl
    | ⟨2, _⟩ => rfl
  · exact shapeCast_apply x h1 _ _ (by
      rw [Shape.rowMajor_val_two, Shape.rowMajor_val_three]
      show y.val * a + f.val = (y.val * a + f.val) * 1 + 0
      omega)

/-- `w[None, :, :]` broadcast to `[n, a, b]`, read at `(y, f, e)`, is `w` at `(f, e)`. -/
theorem rowBcast3_apply {n a b : ℕ} (w : (⟨2, ![a, b]⟩ : Shape).Idx → α)
    (h1 : (⟨2, ![a, b]⟩ : Shape).ShapeCasts ⟨3, ![1, a, b]⟩)
    (h2 : (⟨3, ![1, a, b]⟩ : Shape).Broadcasts ⟨3, ![n, a, b]⟩) (y : Fin n) (f : Fin a) (e : Fin b) :
    broadcastTo ⟨3, ![n, a, b]⟩ (shapeCast ⟨3, ![1, a, b]⟩ w h1) h2 (ix3 y f e) = w (ix2 f e) := by
  refine (broadcastTo_apply _ h2 (ix3 y f e) (ix3 (0 : Fin 1) f e) fun ax => ?_).trans
    (shapeCast_ab_1ab_apply w h1 0 f e)
  match ax with
  | ⟨0, _⟩ => rfl
  | ⟨1, _⟩ =>
    show f.val = if a = 1 then 0 else f.val
    split
    · have := f.isLt; omega
    · rfl
  | ⟨2, _⟩ =>
    show e.val = if b = 1 then 0 else e.val
    split
    · have := e.isLt; omega
    · rfl

/-- A vector `[b]` broadcast over the rows to `[n, b]`, read at `(y, j)`, is the vector at `j`. -/
theorem rowBcast2_apply {n b : ℕ} (v : (⟨1, ![b]⟩ : Shape).Idx → α)
    (h1 : (⟨1, ![b]⟩ : Shape).ShapeCasts ⟨2, ![1, b]⟩)
    (h2 : (⟨2, ![1, b]⟩ : Shape).Broadcasts ⟨2, ![n, b]⟩) (y : Fin n) (j : Fin b) :
    broadcastTo ⟨2, ![n, b]⟩ (shapeCast ⟨2, ![1, b]⟩ v h1) h2 (ix2 y j) = v (ix1 j) :=
  (broadcastTo_1b_ab_apply _ h2 y j).trans (shapeCast_a_1a_apply v h1 0 j)

/-- `[n, a, c]` flattened to `[n, m]`, `m = a · c`: position `k = f · c + e` of row `y` is the operand at `(y, f, e)`. -/
theorem flatten_apply {n a c m : ℕ} (x : (⟨3, ![n, a, c]⟩ : Shape).Idx → α)
    (h : (⟨3, ![n, a, c]⟩ : Shape).ShapeCasts ⟨2, ![n, m]⟩) (hm : m = a * c)
    (y : Fin n) (k : Fin m) (f : Fin a) (e : Fin c) (hk : k.val = f.val * c + e.val) :
    shapeCast ⟨2, ![n, m]⟩ x h (ix2 y k) = x (ix3 y f e) :=
  shapeCast_apply x h _ _ (by
    rw [Shape.rowMajor_val_three, Shape.rowMajor_val_two]
    show (y.val * a + f.val) * c + e.val = y.val * m + k.val
    rw [hk, hm]; ring)

/-- Two blocks joined along the columns: below column `p` the left block, from `p` on the right block `p` columns back. -/
theorem concatCols_apply {n p q m : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, m]⟩ 1) (hm : m = p + q)
    (y : Fin n) (k : Fin m) :
    concatenate ⟨2, ![n, m]⟩ 1 [⟨⟨2, ![n, p]⟩, x₁⟩, ⟨⟨2, ![n, q]⟩, x₂⟩] h (ix2 y k)
      = if hk : k.val < p then x₁ (ix2 y ⟨k.val, hk⟩) else x₂ (ix2 y ⟨k.val - p, by have := k.isLt; omega⟩) := by
  by_cases hk : k.val < p
  · rw [dif_pos hk]
    exact concatenate_pair_apply_left (1 : Fin 2) x₁ x₂ h (ix2 y k) rfl (ix2 y ⟨k.val, hk⟩) (fun b => by
      match b with
      | ⟨0, _⟩ => rfl
      | ⟨1, _⟩ => rfl)
  · rw [dif_neg hk]
    exact concatenate_pair_apply_right (1 : Fin 2) x₁ x₂ h (ix2 y k) rfl rfl
      (ix2 y ⟨k.val - p, by have := k.isLt; omega⟩) (fun b hb => by
        match b, hb with
        | ⟨0, _⟩, _ => rfl
        | ⟨1, _⟩, hb => exact absurd rfl hb)
      (by show (k.val - p) + p = k.val; omega)

variable {φ : FTy}

/-- A sum over the columns, at the ideal values: at row `y`, the sum over the column coordinate. -/
theorem sumCols_apply {n K : ℕ} (src : FVec Ideal ⟨2, ![n, K]⟩ φ) (acc : BitVec φ.bits)
    (h : (⟨2, ![n, K]⟩ : Shape).Reduces [1] ⟨1, ![n]⟩) (hφ : FKind.Formats φ) (hacc : acc = FKind.add.neutral φ hφ)
    (y : Fin n) :
    multiReduction .add [1] ⟨1, ![n]⟩ src acc h hφ hacc (ix1 y) = ∑ k : Fin K, src (ix2 y k) := by
  refine (Ideal.multiReduction_add_single src acc h hφ hacc (ix1 y)).trans ?_
  refine Finset.sum_congr rfl fun k _ => congrArg src (funext fun c => Fin.ext ?_)
  match c with
  | ⟨0, _⟩ => rfl
  | ⟨1, _⟩ => rfl

/-- A sum over the middle axis of `[n, a, b]`, at the ideal values: at `(y, e)`, the sum over the middle coordinate. -/
theorem sumMid_apply {n a b : ℕ} (src : FVec Ideal ⟨3, ![n, a, b]⟩ φ) (acc : BitVec φ.bits)
    (h : (⟨3, ![n, a, b]⟩ : Shape).Reduces [1] ⟨2, ![n, b]⟩) (hφ : FKind.Formats φ)
    (hacc : acc = FKind.add.neutral φ hφ) (y : Fin n) (e : Fin b) :
    multiReduction .add [1] ⟨2, ![n, b]⟩ src acc h hφ hacc (ix2 y e) = ∑ f : Fin a, src (ix3 y f e) := by
  refine (Ideal.multiReduction_add_single src acc h hφ hacc (ix2 y e)).trans ?_
  refine Finset.sum_congr rfl fun k _ => congrArg src (funext fun c => Fin.ext ?_)
  match c with
  | ⟨0, _⟩ => rfl
  | ⟨1, _⟩ => rfl
  | ⟨2, _⟩ => rfl

end Cert.RowLayout
-- ==== Proof.KernelValue.lean ====
/-
  The kernel's result array.

  The grid has 128 points; point `t` stages rows `2048·t … 2048·t + 2047` of both arguments (all 256 columns) and
  writes back the same rows of the one-column result. In a block the body sums, over the columns of each row, the
  products `q·d`, `q·q` and `d·d`, takes the square roots of the last two, and stores the first sum divided by the
  product of the roots: entry `(p, 0)` of the block is `Cosine.quot` of row `p` of the two staged blocks
  (`block_apply`). Row `p` of the block staged at point `t` is row `2048·t + p` of the argument, so what point `t`
  writes back is block `t` of the column of cosines of the whole arguments (`flushed_eq`); the 128 blocks tile the
  result's 262144 rows (`cover`), so after the run the result array is that column (`final`, `run`).
-/
import proofs.«155306_j26946624815703_1_alg».proof.Proof.Gen.KernelIdeal.Value
import proofs.«155306_j26946624815703_1_alg».proof.Proof.Cosine
import proofs.«155306_j26946624815703_1_alg».proof.Proof.LibRowLayout
import Idealize.ShloMosaic.Lib.Pipeline.Value
import Idealize.ShloMosaic.Lib.ValueIdx

noncomputable section

open scoped BigOperators

namespace Cert.KernelIdeal.KValue

open Cert.KernelIdeal Cert.KernelIdeal.Gen Cert.KernelIdeal.Value Idealize.ShloMosaic Idealize.ShloMosaic.TcCoe Idealize.SL.Sem
open Idealize.ShloMosaic.ValueIdx Cert.Cosine
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One block -/

/-- Entry `(p, 0)` of what the body leaves in the output block: the quotient form of the cosine of row `p` of the two
    input blocks. -/
theorem block_apply (P0 P1 : Vec Ideal S2048x256 .f32) (p : Fin 2048) (z : Fin 1) :
    E2 (F := Ideal) P0 P1 (ix2 p z) = quot (row P0 p) (row P1 p) := by
  have e0 : ix2_0 (ix2 p z) = ix1 p := funext fun a => Fin.ext (by match a with | ⟨0, _⟩ => rfl)
  have e1 : ix2_1 (ix2 p z) = ix1 p := funext fun a => Fin.ext (by match a with | ⟨0, _⟩ => rfl)
  have e2 : ix2_2 (ix2 p z) = ix1 p := funext fun a => Fin.ext (by match a with | ⟨0, _⟩ => rfl)
  have s01 : multiReduction (F := Ideal) .add [1] S2048 (mulf P0 P1) 0x00000000#32 reduces_S2048x256_S2048 (.inl rfl) rfl (ix1 p)
      = ∑ k : Fin 256, P0 (ix2 p k) * P1 (ix2 p k) :=
    Cert.RowLayout.sumCols_apply (mulf P0 P1) 0x00000000#32 reduces_S2048x256_S2048 (.inl rfl) rfl p
  have s00 : multiReduction (F := Ideal) .add [1] S2048 (mulf P0 P0) 0x00000000#32 reduces_S2048x256_S2048 (.inl rfl) rfl (ix1 p)
      = ∑ k : Fin 256, P0 (ix2 p k) * P0 (ix2 p k) :=
    Cert.RowLayout.sumCols_apply (mulf P0 P0) 0x00000000#32 reduces_S2048x256_S2048 (.inl rfl) rfl p
  have s11 : multiReduction (F := Ideal) .add [1] S2048 (mulf P1 P1) 0x00000000#32 reduces_S2048x256_S2048 (.inl rfl) rfl (ix1 p)
      = ∑ k : Fin 256, P1 (ix2 p k) * P1 (ix2 p k) :=
    Cert.RowLayout.sumCols_apply (mulf P1 P1) 0x00000000#32 reduces_S2048x256_S2048 (.inl rfl) rfl p
  show Ideal.div (multiReduction (F := Ideal) .add [1] S2048 (mulf P0 P1) 0x00000000#32 reduces_S2048x256_S2048 (.inl rfl) rfl (ix2_0 (ix2 p z)))
      (Ideal.sqrt (multiReduction (F := Ideal) .add [1] S2048 (mulf P0 P0) 0x00000000#32 reduces_S2048x256_S2048 (.inl rfl) rfl (ix2_1 (ix2 p z)))
        * Ideal.sqrt (multiReduction (F := Ideal) .add [1] S2048 (mulf P1 P1) 0x00000000#32 reduces_S2048x256_S2048 (.inl rfl) rfl (ix2_2 (ix2 p z)))) = _
  rw [e0, e1, e2]
  exact congrArg₂ Ideal.div s01 (congrArg₂ (· * ·) (congrArg Ideal.sqrt s00) (congrArg Ideal.sqrt s11))

/-! ## The index maps -/

/-- The printed index maps over the 128 points: every window's block row index is the point's number, its block
    column index zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-! ## What a point writes back -/

/-- WHAT POINT `t` WRITES BACK is block `t` of the column of cosines of the argument arrays. -/
theorem flushed_eq (c : Dev nD) (t : Fin cfg0.N) :
    (dats m 0 c).flushed 2 t
      = ((cfg0.win 2).blk t).view.read (Elt Ideal) (cosCol (V m c main_arg0) (V m c main_arg1)) := by
  rw [flushed2]
  unfold out0_2
  simp only [View.ld_unit_zero (S := S2048x256) hz]
  obtain ⟨a0, a1, b0, b1, c0, c1⟩ := idx_facts t
  funext j
  obtain ⟨p, z, rfl⟩ : ∃ (p : Fin 2048) (z : Fin 1), j = ix2 p z := ⟨j 0, j 1, eq_ix2 j⟩
  show View.canon ([⟨r0_1, k0_pay1 (F := Ideal) (iblk m c 0 t) (iblk m c 1 t)⟩] : List (View.Piece (Elt Ideal) S2048x1 .f32)) (ix2 p z)
      = cosCol (V m c main_arg0) (V m c main_arg1) (((cfg0.win 2).blk t).view.emb (ix2 p z))
  refine (canon2_eq (F := Ideal) (iblk m c 0 t) (iblk m c 1 t) (ix2 p z)).trans ?_
  refine (block_apply (iblk m c 0 t) (iblk m c 1 t) p z).trans ?_
  have ht : t.val < 128 := t.isLt
  have hp : p.val < 2048 := p.isLt
  have hzv : z.val < 1 := z.isLt
  let R : Fin 262144 := ⟨t.val * 2048 + p.val, by omega⟩
  have hR : ((cfg0.win 2).blk t).view.emb (ix2 p z) = (ix2 R (0 : Fin 1) : S262144x1.Idx) := by
    funext a; apply Fin.ext
    match a with
    | ⟨0, _⟩ => show win0_2.index t (0 : Fin 2) * 2048 + 1 * p.val = t.val * 2048 + p.val; omega
    | ⟨1, _⟩ => show win0_2.index t (1 : Fin 2) * 1 + 1 * z.val = 0; omega
  have h0 : ∀ k : Fin 256, ((cfg0.win 0).blk t).view.emb (ix2 p k) = (ix2 R k : S262144x256.Idx) := fun k => by
    funext a; apply Fin.ext
    match a with
    | ⟨0, _⟩ => show win0_0.index t (0 : Fin 2) * 2048 + 1 * p.val = t.val * 2048 + p.val; omega
    | ⟨1, _⟩ => show win0_0.index t (1 : Fin 2) * 256 + 1 * k.val = k.val; omega
  have h1 : ∀ k : Fin 256, ((cfg0.win 1).blk t).view.emb (ix2 p k) = (ix2 R k : S262144x256.Idx) := fun k => by
    funext a; apply Fin.ext
    match a with
    | ⟨0, _⟩ => show win0_1.index t (0 : Fin 2) * 2048 + 1 * p.val = t.val * 2048 + p.val; omega
    | ⟨1, _⟩ => show win0_1.index t (1 : Fin 2) * 256 + 1 * k.val = k.val; omega
  rw [hR]
  show quot (row (iblk m c 0 t) p) (row (iblk m c 1 t) p)
      = quot (row (V m c main_arg0) R) (row (V m c main_arg1) R)
  have r0 : row (iblk m c 0 t) p = row (V m c main_arg0) R :=
    funext fun k => by
      show V m c main_arg0 (((cfg0.win 0).blk t).view.emb (ix2 p k)) = V m c main_arg0 (ix2 R k)
      rw [h0 k]
  have r1 : row (iblk m c 1 t) p = row (V m c main_arg1) R :=
    funext fun k => by
      show V m c main_arg1 (((cfg0.win 1).blk t).view.emb (ix2 p k)) = V m c main_arg1 (ix2 R k)
      rw [h1 k]
  rw [r0, r1]

/-! ## The blocks tile the result -/

/-- An index of the result is in point `t`'s block iff each coordinate is in the block's range on its axis. -/
theorem mem_blk (t : Fin cfg0.N) (i : S262144x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v0).slice (win0_2.rect t)).set ↔ _
  rw [View.set_slice_whole, Rect.mem_set_unit]
  exact Iff.rfl

/-- Every row of the result lies in the block of the point numbered by the row's quotient by 2048. -/
theorem cover (i : S262144x1.Idx) :
    ∃ t : Fin cfg0.N, (cfg0.win 2).flush t = true ∧ i ∈ ((cfg0.win 2).blk t).view.set := by
  have hi0 : (i 0).val < 262144 := (i 0).isLt
  have hi1 : (i 1).val < 1 := (i 1).isLt
  let t : Fin cfg0.N := ⟨(i 0).val / 2048, by show (i 0).val / 2048 < 128; omega⟩
  obtain ⟨-, -, -, -, c0, c1⟩ := idx_facts t
  have ht : t.val = (i 0).val / 2048 := rfl
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1 ≤ (i 1).val ∧ (i 1).val < win0_2.index t (1 : Fin 2) * 1 + 1; omega

/-- THE RESULT ARRAY after the run: the column of cosines of the argument arrays. -/
theorem final (c : Dev nD) :
    (dats m 0 c).arrAt 2 cfg0.N
      = cosCol (m ((c : Thread nD τ).loc main_arg0)) (m ((c : Thread nD τ).loc main_arg1)) :=
  (dats m 0 c).arrAt_eq_of_cover 2 (cosCol (V m c main_arg0) (V m c main_arg1)) (fun t _ => flushed_eq m c t) cover

/-- The run: the result array at the column of cosines, the arguments unchanged. -/
theorem run : θ_run defs (onTc (τ := τ) (main (F := Ideal))) ⟨m, fun _ => 0, ρ⟩ fun r => ∀ c : Dev nD,
      r.2.mem ((c : Thread nD τ).loc main_v0)
        = cosCol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KValue

end
-- ==== Proof.lean ====
/-
  Row-wise cosine similarity: the kernel against the reference, over the extended reals.

  Both programs take two arrays `q d` of 262144 rows and 256 columns and return one column. The kernel, block of 2048
  rows by block, returns for each row the inner product of the two rows divided by the product of their norms,
  `(∑ qₖ dₖ) / (√(∑ qₖ²) · √(∑ dₖ²))`. The reference divides each row by its norm first and then takes the inner
  product of the normalised rows, `∑ (qₖ / √(∑ q²)) · (dₖ / √(∑ d²))`.

  On a row whose entries are all zero the norm is zero and both programs divide by zero; the extended reals give the
  two arrangements different values there, so the claim is stated where the reference's quotients are defined: every
  entry finite and every row of each argument with a positive sum of squares. There each norm is a positive real, each
  quotient a product with a real reciprocal, and the two arrangements are the same real number
  (`Cosine.normDot_eq_quot`).

  The pieces: `Cosine` (the two arrangements and the law between them), `PreDecode` (what the precondition says of the
  arrays), `RefValue` (the reference's result at an index), `KernelValue` (the kernel's result array from its blocks).
  The three frames are the generated runs; the idealization rewrote nothing, so `preserves` is trivial.
-/
import proofs.«155306_j26946624815703_1_alg».proof.Defs
import proofs.«155306_j26946624815703_1_alg».proof.Proof.Gen.Kernel
import proofs.«155306_j26946624815703_1_alg».proof.Proof.Gen.Kernel.Skeleton
import proofs.«155306_j26946624815703_1_alg».proof.Proof.Gen.Kernel.Launch
import proofs.«155306_j26946624815703_1_alg».proof.Proof.Gen.Kernel.Points
import proofs.«155306_j26946624815703_1_alg».proof.Proof.Gen.Kernel.Frame
import proofs.«155306_j26946624815703_1_alg».proof.Proof.Gen.KernelIdeal
import proofs.«155306_j26946624815703_1_alg».proof.Proof.Gen.KernelIdeal.Skeleton
import proofs.«155306_j26946624815703_1_alg».proof.Proof.Gen.KernelIdeal.Launch
import proofs.«155306_j26946624815703_1_alg».proof.Proof.Gen.KernelIdeal.Points
import proofs.«155306_j26946624815703_1_alg».proof.Proof.Gen.KernelIdeal.Frame
import proofs.«155306_j26946624815703_1_alg».proof.Proof.Gen.ReferenceIdeal
import proofs.«155306_j26946624815703_1_alg».proof.Proof.Gen.Pre_finite_inputs
import proofs.«155306_j26946624815703_1_alg».proof.Proof.Gen.KernelIdeal.Value
import proofs.«155306_j26946624815703_1_alg».proof.Proof.Gen.ReferenceIdeal.Run
import proofs.«155306_j26946624815703_1_alg».proof.Proof.Gen.ReferenceIdeal.Read
import proofs.«155306_j26946624815703_1_alg».proof.Proof.Cosine
import proofs.«155306_j26946624815703_1_alg».proof.Proof.PreDecode
import proofs.«155306_j26946624815703_1_alg».proof.Proof.RefValue
import proofs.«155306_j26946624815703_1_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx Cert.Cosine

/-- The kernel at the word level runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- And the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition the reference's result array is the column of cosines in the quotient form: row by row the
    inner product of the normalised rows is the inner product over the product of the norms. -/
theorem ref_eq_cosCol (x0 x1 : (⟨Cert.ReferenceIdeal.S262144x256, .f32⟩ : BufTy).Contents (Elt Ideal))
    (hpre : Cert.Pre_finite_inputs.fn (F := Ideal) x0 x1 = fun _ => 1#1) :
    Cert.ReferenceIdeal.Read.val_main_v8 (F := Ideal) x0 x1 = cosCol (N := 262144) (K := 256) x0 x1 := by
  obtain ⟨hq, hd, hpq, hpd⟩ := Cert.PreDecode.decode x0 x1 hpre
  funext i
  obtain ⟨r, z, rfl⟩ : ∃ (r : Fin 262144) (z : Fin 1), i = ix2 r z := ⟨i 0, i 1, eq_ix2 i⟩
  rw [Cert.ReferenceIdeal.RefValue.result_apply]
  exact normDot_eq_quot _ _ (fun k => hq _) (fun k => hd _) (hpq r) (hpd r)

/-- From memories that agree on the arguments, both idealized programs run, and end with the same result array: the
    column of cosines of the arguments. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2]
  exact ref_eq_cosCol _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
